-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x4096 : Shape := ⟨3, ![16, 3, 4096]⟩
abbrev S_ : Shape := ⟨0, ![]⟩

class Facts : Prop where
  bcast_S_S16x3x4096 : S_.BroadcastsInDim S16x3x4096 (![] : Fin 0 → Fin S16x3x4096.rank)
  reducesTo_S16x3x4096_S_d0_1_2 : S16x3x4096.ReducesTo [0, 1, 2] S_
  h_S_ : 0 < S_.numel

variable [Facts]

def fn {F : FTy → Type} [FloatOps F] (main_arg0 : FVec F S16x3x4096 .f32) (main_arg1 : FVec F S16x3x4096 .f32) : IVec S_ 1 :=
  let main_v0 : FVec F S16x3x4096 .f32 := Host.absf main_arg0
  let main_cst : FVec F S_ .f32 := constant S_ .f32 0x7F800000#32
  let main_v1 : FVec F S16x3x4096 .f32 := broadcastInDim S16x3x4096 ![] bcast_S_S16x3x4096 main_cst
  let main_v2 : IVec S16x3x4096 1 := cmpf .olt main_v0 main_v1
  let main_c : IVec S_ 1 := constantI S_ 1 1#1
  let main_v3 : IVec S_ 1 := (fun x v => Host.reduce IntOp.andi x v reducesTo_S16x3x4096_S_d0_1_2 h_S_) main_v2 main_c
  let main_v4 : FVec F S16x3x4096 .f32 := Host.absf main_arg1
  let main_cst_0 : FVec F S_ .f32 := constant S_ .f32 0x7F800000#32
  let main_v5 : FVec F S16x3x4096 .f32 := broadcastInDim S16x3x4096 ![] bcast_S_S16x3x4096 main_cst_0
  let main_v6 : IVec S16x3x4096 1 := cmpf .olt main_v4 main_v5
  let main_c_1 : IVec S_ 1 := constantI S_ 1 1#1
  let main_v7 : IVec S_ 1 := (fun x v => Host.reduce IntOp.andi x v reducesTo_S16x3x4096_S_d0_1_2 h_S_) main_v6 main_c_1
  let main_v8 : IVec S_ 1 := andi main_v3 main_v7
  main_v8
-- ==== Kernel.lean ====
abbrev S16x3x4096 : Shape := ⟨3, ![16, 3, 4096]⟩
abbrev S16x4096x3 : Shape := ⟨3, ![16, 4096, 3]⟩
abbrev S16x4096x1 : Shape := ⟨3, ![16, 4096, 1]⟩
abbrev S1x512x3 : Shape := ⟨3, ![1, 512, 3]⟩
abbrev S1x4096x3 : Shape := ⟨3, ![1, 4096, 3]⟩
abbrev S1x512x1 : Shape := ⟨3, ![1, 512, 1]⟩
abbrev S512x3 : Shape := ⟨2, ![512, 3]⟩
abbrev S4096x3 : Shape := ⟨2, ![4096, 3]⟩
abbrev S3x4096 : Shape := ⟨2, ![3, 4096]⟩
abbrev S512x4096 : Shape := ⟨2, ![512, 4096]⟩
abbrev S512 : Shape := ⟨1, ![512]⟩
abbrev S512x1 : Shape := ⟨2, ![512, 1]⟩
abbrev S4096 : Shape := ⟨1, ![4096]⟩
abbrev S4096x1 : Shape := ⟨2, ![4096, 1]⟩
abbrev S1x4096 : Shape := ⟨2, ![1, 4096]⟩
abbrev S16x4096 : Shape := ⟨2, ![16, 4096]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S16x3x4096, .f32⟩
  | .hbm, ⟨1, _⟩ => ⟨S16x3x4096, .f32⟩
  | .hbm, ⟨2, _⟩ => ⟨S16x4096x3, .f32⟩
  | .hbm, ⟨3, _⟩ => ⟨S16x4096x3, .f32⟩
  | .hbm, ⟨4, _⟩ => ⟨S16x4096x1, .f32⟩
  | .hbm, ⟨5, _⟩ => ⟨S16x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x4096x3, .f32⟩
  | .local _ .vmem, ⟨3, _⟩ => ⟨S1x4096x3, .f32⟩
  | .local _ .vmem, ⟨4, _⟩ => ⟨S1x512x1, .f32⟩
  | .local _ .vmem, ⟨5, _⟩ => ⟨S1x512x1, .f32⟩
  | _, _ => ⟨S16x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S16x3x4096_S16x4096x3_0_2_1 : S16x3x4096.Transposes [0, 2, 1] S16x4096x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  bitsLt_bf16_f32 : FTy.bits .bf16 < FTy.bits .f32
  transposes_S4096x3_p1_0_S3x4096 : S4096x3.Transposes [1, 0] S3x4096
  reduces_S512x3_S512 : S512x3.Reduces [1] S512
  shapeCasts_S512_S512x1 : S512.ShapeCasts S512x1
  reduces_S4096x3_S4096 : S4096x3.Reduces [1] S4096
  shapeCasts_S4096_S4096x1 : S4096.ShapeCasts S4096x1
  transposes_S4096x1_p1_0_S1x4096 : S4096x1.Transposes [1, 0] S1x4096
  broadcasts_S512x1_S512x4096 : S512x1.Broadcasts S512x4096
  broadcasts_S1x4096_S512x4096 : S1x4096.Broadcasts S512x4096
  reduces_S512x4096_S512 : S512x4096.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  shapeCasts_S16x4096x1_S16x4096 : S16x4096x1.ShapeCasts S16x4096
  reducesTo_S16x4096_S_d0_1 : S16x4096.ReducesTo [0, 1] S_
  h_S_ : 0 < S_.numel
  dot_S512x3_S3x4096_S512x4096_1_0_0_1_n_n_wf : DotDims.WF S512x3 S3x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S16x4096x3.size a
  hwx0_0 : ∀ i : grid0.Coords, EltTy.bits .f32 = 32 ∨ (Rect.block (s := S16x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S16x4096x3.size a
  hwx0_1 : ∀ i : grid0.Coords, EltTy.bits .f32 = 32 ∨ (Rect.block (s := S16x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S16x4096x1.size a
  hwx0_2 : ∀ i : grid0.Coords, EltTy.bits .f32 = 32 ∨ (Rect.block (s := S16x4096x1) S1x512x1.size (cc0_transform_2 i) (hinb0_2 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_v0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x4096 : Shape := ⟨3, ![16, 3, 4096]⟩
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16x3x4096, .f32⟩
  | .hbm, ⟨1, _⟩ => ⟨S16x3x4096, .f32⟩
  | .hbm, ⟨2, _⟩ => ⟨S16x4096x3, .f32⟩
  | .hbm, ⟨3, _⟩ => ⟨S16x4096x3, .f32⟩
  | .hbm, ⟨4, _⟩ => ⟨S16x4096x3, .f32⟩
  | .hbm, ⟨5, _⟩ => ⟨S_, .f32⟩
  | .hbm, ⟨6, _⟩ => ⟨S16x4096, .f32⟩
  | .hbm, ⟨7, _⟩ => ⟨S16x4096x3, .f32⟩
  | .hbm, ⟨8, _⟩ => ⟨S_, .f32⟩
  | .hbm, ⟨9, _⟩ => ⟨S16x4096, .f32⟩
  | .hbm, ⟨10, _⟩ => ⟨S16x4096x4096, .f32⟩
  | .hbm, ⟨11, _⟩ => ⟨S16x4096x1, .f32⟩
  | .hbm, ⟨12, _⟩ => ⟨S16x1x4096, .f32⟩
  | .hbm, ⟨13, _⟩ => ⟨S16x4096x4096, .f32⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S16x4096x4096, .f32⟩
  | .hbm, ⟨18, _⟩ => ⟨S16x4096x4096, .f32⟩
  | .hbm, ⟨19, _⟩ => ⟨S16x4096x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S16x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  transposes_S16x3x4096_S16x4096x3_0_2_1 : S16x3x4096.Transposes [0, 2, 1] S16x4096x3
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S_d0_1 : S16x4096.ReducesTo [0, 1] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Spec.lean ====
/-
  The quantity both programs compute, stated once over the extended reals.

  Two point clouds of 4096 points in three coordinates are given per batch entry. For a query point `x` and the
  candidate points `y_j`, the squared distance is expanded as `(|x|² + |y_j|²) − 2·(x · y_j)`, and the nearest
  candidate's value is the minimum over `j`, taken from `+∞`. The literal `2.0` and the `+∞` the minimum starts
  from are kept as the words both programs print: the same word on both sides is never evaluated.
-/
import Idealize.ShloMosaic.PureOps.Ideal
import Idealize.ShloMosaic.Lib.ValueIdx

noncomputable section

namespace Cert.Nearest

open Idealize.ShloMosaic Idealize.ShloMosaic.ValueIdx

/-- The factor of the cross term, the word of `2.0` read as an extended real. -/
abbrev two : EReal := Ideal.ofBits .f32 0x40000000#32
/-- What the minimum starts from, the word of `+∞`. -/
abbrev start : EReal := Ideal.ofBits .f32 0x7F800000#32

/-- For one query point `x` and 4096 candidates `ys j`: the least expanded squared distance
    `(Σ_d x_d² + Σ_d (y_j)_d²) − 2 · Σ_d x_d (y_j)_d` over the candidates. -/
def rowNearest (x : Fin 3 → EReal) (ys : Fin 4096 → Fin 3 → EReal) : EReal :=
  Finset.univ.fold min start fun j : Fin 4096 =>
    ((∑ d : Fin 3, x d * x d) + ∑ d : Fin 3, ys j d * ys j d) - two * ∑ d : Fin 3, x d * ys j d

/-- A batch of point clouds laid out batch × point × coordinate. -/
abbrev Cloud : Shape := ⟨3, ![16, 4096, 3]⟩

/-- Point `i` of batch entry `b` of `X` against all points of the same batch entry of `Y`. -/
def nearest (X Y : Cloud.Idx → EReal) (b : Fin 16) (i : Fin 4096) : EReal :=
  rowNearest (fun d => X (ix3 b i d)) (fun j d => Y (ix3 b j d))

end Cert.Nearest

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Body.lean ====
/-
  The kernel body's one store, read at an index of the output block.

  The body loads a block of 512 query points and the whole cloud of 4096 candidates of one batch entry. Entry `p` of
  the stored column is the minimum over the candidates `j` of `(|x_p|² + |y_j|²) − 2·(x_p · y_j)`: the two squared
  norms are lane sums over the three coordinates, the cross term is a matrix product into a zero accumulator with a
  contraction of length three (the narrowing to bf16 changes nothing over the extended reals), and the rest is a
  column spread over the lanes plus a row spread over the sublanes.
-/
import proofs.«177579_j52570399703230_1_alg».proof.Proof.Gen.KernelIdeal.Skeleton
import proofs.«177579_j52570399703230_1_alg».proof.Proof.Spec
import proofs.«177579_j52570399703230_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Nearest

/-- Reducing a matrix along its rows: the source index over row `p` with lane `k` put back is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum of the squares of a matrix's rows, from the neutral word, at row `p`. -/
theorem rowSq {a : ℕ} (v : FVec Ideal ⟨2, ![a, 3]⟩ .f32) (h : (⟨2, ![a, 3]⟩ : Shape).Reduces [1] ⟨1, ![a]⟩)
    (hφ : FKind.Formats .f32) (hacc : (0x00000000#32 : BitVec 32) = FKind.add.neutral .f32 hφ) (p : Fin a) :
    multiReduction .add [1] ⟨1, ![a]⟩ (mulf v v) 0x00000000#32 h hφ hacc (ix1 p) = ∑ d : Fin 3, v (ix2 p d) * v (ix2 p d) :=
  (Ideal.multiReduction_add_single (mulf v v) _ h hφ hacc (ix1 p)).trans
    (Finset.sum_congr rfl fun k _ => congrArg (fun i => mulf v v i) (lift_row h p k))

/-- A lane minimum of a matrix's rows, from the word of `+∞`, at row `p`. -/
theorem rowMin {a b : ℕ} (w : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ w 0x7F800000#32 h hφ hacc (ix1 p)
      = Finset.univ.fold min start fun j : Fin b => w (ix2 p j) :=
  (multiReduction_minimumf_eq_fold w _ h hφ hacc (ix1 p)).trans
    ((h.fold_filter_drop_single _ _ w (ix1 p)).trans
      (congrArg (fun f => Finset.fold min start f Finset.univ) (funext fun j => congrArg w (lift_row h p j))))

abbrev D := dot_S512x3_S3x4096_S512x4096_1_0_0_1_n_n

theorem lhs_0 (i : S512x4096.Idx) (q : D.contr.Idx) : (D.lhsIdx i q 0).val = (i 0).val := by
  unfold DotDims.lhsIdx
  rw [dif_neg (show ¬(0 : Fin S512x3.rank) ∈ D.lhsBatch by decide), dif_pos (show (0 : Fin S512x3.rank) ∈ D.lhsNonContracting by decide)]
  rfl
theorem lhs_1 (i : S512x4096.Idx) (q : D.contr.Idx) : (D.lhsIdx i q 1).val = (q ⟨0, by decide⟩).val :=
  D.lhsIdx_val_of_single rfl i q
theorem rhs_0 (i : S512x4096.Idx) (q : D.contr.Idx) : (D.rhsIdx i q 0).val = (q ⟨0, by decide⟩).val :=
  D.rhsIdx_val_of_single rfl i q
theorem rhs_1 (i : S512x4096.Idx) (q : D.contr.Idx) : (D.rhsIdx i q 1).val = (i 1).val := by
  unfold DotDims.rhsIdx
  rw [dif_neg (show ¬(1 : Fin S3x4096.rank) ∈ D.rhsBatch by decide), dif_pos (show (1 : Fin S3x4096.rank) ∈ D.rhsNonContracting by decide)]
  rfl

/-- The matrix product into a zero accumulator at `(p, j)`: the sum over the three contracted coordinates. -/
theorem matmulAt (l : FVec Ideal S512x3 .bf16) (r : FVec Ideal S3x4096 .bf16) (p : Fin 512) (j : Fin 4096) :
    matmul D none l r (constant S512x4096 .f32 0x00000000#32) (ix2 p j) = ∑ d : Fin 3, l (ix2 p d) * r (ix2 d j) := by
  simp only [matmul]
  rw [Ideal.matmul_constant_zero_apply, ← Equiv.sum_comp (ValueIdx.contrEquiv1 D 3 rfl rfl).symm]
  refine Finset.sum_congr rfl fun k _ => ?_
  have hk := ValueIdx.contrEquiv1_symm_val D 3 rfl rfl k
  have el : D.lhsIdx (ix2 p j) ((ValueIdx.contrEquiv1 D 3 rfl rfl).symm k) = ix2 p k := funext fun a => Fin.ext (by
    match a with
    | ⟨0, _⟩ => exact lhs_0 _ _
    | ⟨1, _⟩ => exact (lhs_1 _ _).trans hk)
  have er : D.rhsIdx (ix2 p j) ((ValueIdx.contrEquiv1 D 3 rfl rfl).symm k) = ix2 k j := funext fun a => Fin.ext (by
    match a with
    | ⟨0, _⟩ => exact (rhs_0 _ _).trans hk
    | ⟨1, _⟩ => exact rhs_1 _ _)
  rw [el, er]

/-- THE STORED COLUMN at `(u, p, z)`: query point `p` of the loaded block against the 4096 loaded candidates. -/
theorem pay_apply (x0 : Vec Ideal S1x512x3 .f32) (x1 : Vec Ideal S1x4096x3 .f32) (u : Fin 1) (p : Fin 512) (z : Fin 1) :
    k0_pay1 (F := Ideal) x0 x1 (ix3 u p z)
      = rowNearest (fun d => x0 (ix3 (0 : Fin 1) p d)) (fun j d => x1 (ix3 (0 : Fin 1) j d)) := by
  have ha : ∀ (q : Fin 512) (d : Fin 3), shapeCast S512x3 x0 shapeCasts_S1x512x3_S512x3 (ix2 q d) = x0 (ix3 (0 : Fin 1) q d) :=
    fun q d => shapeCast_1ab_ab_apply x0 _ q d
  have hb : ∀ (j : Fin 4096) (d : Fin 3), shapeCast S4096x3 x1 shapeCasts_S1x4096x3_S4096x3 (ix2 j d) = x1 (ix3 (0 : Fin 1) j d) :=
    fun j d => shapeCast_1ab_ab_apply x1 _ j d
  unfold k0_pay1
  dsimp only
  refine (shapeCast_ab_1ab_apply _ _ u p z).trans ?_
  refine (LibColumn.shapeCast_a_a1_apply _ _ p z).trans ?_
  refine (rowMin _ _ _ _ p).trans ?_
  unfold rowNearest
  refine congrArg (fun f => Finset.fold min start f Finset.univ) (funext fun j => ?_)
  refine congrArg₂ (· - ·) (congrArg₂ (· + ·) ?_ ?_) (congrArg₂ (· * ·) rfl ?_)
  · refine (LibColumn.broadcastTo_a1_ab_apply _ _ p j).trans ?_
    refine (LibColumn.shapeCast_a_a1_apply _ _ p (0 : Fin 1)).trans ?_
    refine (rowSq _ _ _ _ p).trans (Finset.sum_congr rfl fun d _ => ?_)
    rw [ha]
  · refine (broadcastTo_1b_ab_apply _ _ p j).trans ?_
    refine (transpose_ix2_apply _ _ (0 : Fin 1) j).trans ?_
    refine (LibColumn.shapeCast_a_a1_apply _ _ j (0 : Fin 1)).trans ?_
    refine (rowSq _ _ _ _ j).trans (Finset.sum_congr rfl fun d _ => ?_)
    rw [hb]
  · refine (matmulAt _ _ p j).trans (Finset.sum_congr rfl fun d _ => ?_)
    refine congrArg₂ (· * ·) (ha p d) ?_
    exact (transpose_ix2_apply _ _ d j).trans (hb j d)

end Cert.KernelIdeal.Body

end
-- ==== Proof.Blocks.lean ====
/-
  From the blocks a grid point writes back to the whole array of nearest values.

  Grid point `t = (b, I)` works on batch entry `b`: its query block is rows `512·I … 512·I + 511` of the first cloud,
  its candidate block is the whole second cloud of that batch entry, and it writes rows `512·I …` of the output column
  of batch entry `b`. So what it writes is the block of ONE array: at `(b, i, 0)`, point `i` of batch entry `b` against
  the second cloud. The 16 × 8 blocks tile the output, so after the run the output IS that array.
-/
import proofs.«177579_j52570399703230_1_alg».proof.Proof.Gen.KernelIdeal.Frame
import proofs.«177579_j52570399703230_1_alg».proof.Proof.Body
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Nearest
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The column of nearest values: at `(b, i, 0)`, point `i` of batch entry `b` of `X` against batch entry `b` of `Y`. -/
def dists (X Y : S16x4096x3.Idx → EReal) : S16x4096x1.Idx → EReal :=
  fun i => nearest X Y ⟨(i 0).val, (i 0).isLt⟩ ⟨(i 1).val, (i 1).isLt⟩

/-- The three index maps, decided over the 128 grid points: the query window moves with the output window on the
    batch and row-block axes, the candidate window on the batch axis only, and every other block index is zero. -/
theorem idx_facts : ∀ t : Fin cfg0.N,
      win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 15
    ∧ win0_2.index t (1 : Fin 3) ≤ 7 :=
  (by decide +kernel : ∀ t : Fin grid0.N, _)

/-- Every output block is some grid point's. -/
theorem idx_onto : ∀ (q0 : Fin 16) (q1 : Fin 8), ∃ t : Fin cfg0.N, win0_2.index t = ![q0.val, q1.val, 0] :=
  (by decide +kernel : ∀ (q0 : Fin 16) (q1 : Fin 8), ∃ t : Fin grid0.N, win0_2.index t = ![q0.val, q1.val, 0])

/-- WHAT GRID POINT `t` WRITES BACK is block `t` of the column of nearest values of the two clouds as the region finds
    them. -/
theorem flushed_eq (c : Dev nD) (t : Fin cfg0.N) :
    (dats m 0 c).flushed 2 t
      = ((cfg0.win 2).blk t).view.read (Elt Ideal) (dists (V m c main_v0) (V m c main_v1)) := by
  show (cfg0.win 2).cut (grid0.coords t) ((dats m 0 c).after 2 t) = _
  rw [after0_2]
  unfold out0_2
  rw [View.canon_unit_zero hz]
  simp only [View.ld_unit_zero (S := S1x512x3) hz, View.ld_unit_zero (S := S1x4096x3) hz]
  obtain ⟨e0, e1, e2, e3, e4, e5, e6, e7, e8⟩ := idx_facts t
  funext y
  obtain ⟨u, p, z, rfl⟩ : ∃ (u : Fin 1) (p : Fin 512) (z : Fin 1), y = ix3 u p z := ⟨y 0, y 1, y 2, eq_ix3 y⟩
  show k0_pay1 (F := Ideal) (iblk m c 0 t) (iblk m c 1 t) (ix3 u p z)
    = dists (V m c main_v0) (V m c main_v1) (((cfg0.win 2).blk t).view.emb (ix3 u p z))
  refine (Body.pay_apply (iblk m c 0 t) (iblk m c 1 t) u p z).trans ?_
  unfold dists nearest
  have hu : u.val < 1 := u.isLt
  refine congrArg₂ rowNearest (funext fun d => ?_) (funext fun j => funext fun d => ?_)
  · show V m c main_v0 (((cfg0.win 0).blk t).view.emb (ix3 (0 : Fin 1) p d)) = V m c main_v0 _
    refine congrArg (V m c main_v0) (funext fun a => Fin.ext ?_)
    match a with
    | ⟨0, _⟩ => show win0_0.index t (0 : Fin 3) * 1 + 1 * 0 = win0_2.index t (0 : Fin 3) * 1 + 1 * u.val; omega
    | ⟨1, _⟩ => show win0_0.index t (1 : Fin 3) * 512 + 1 * p.val = win0_2.index t (1 : Fin 3) * 512 + 1 * p.val; omega
    | ⟨2, _⟩ => show win0_0.index t (2 : Fin 3) * 3 + 1 * d.val = d.val; omega
  · show V m c main_v1 (((cfg0.win 1).blk t).view.emb (ix3 (0 : Fin 1) j d)) = V m c main_v1 _
    refine congrArg (V m c main_v1) (funext fun a => Fin.ext ?_)
    match a with
    | ⟨0, _⟩ => show win0_1.index t (0 : Fin 3) * 1 + 1 * 0 = win0_2.index t (0 : Fin 3) * 1 + 1 * u.val; omega
    | ⟨1, _⟩ => show win0_1.index t (1 : Fin 3) * 4096 + 1 * j.val = j.val; omega
    | ⟨2, _⟩ => show win0_1.index t (2 : Fin 3) * 3 + 1 * d.val = d.val; omega

/-- An index of the output is in grid point `t`'s block iff each coordinate is in the block's range on its axis. -/
theorem mem_blk (t : Fin cfg0.N) (i : S16x4096x1.Idx) :
    i ∈ ((cfg0.win 2).blk t).view.set ↔ ∀ a : Fin 3, win0_2.index t a * S1x512x1.size a ≤ (i a).val
      ∧ (i a).val < win0_2.index t a * S1x512x1.size a + S1x512x1.size a := by
  show i ∈ ((View.whole main_v2).slice (win0_2.rect t)).set ↔ _
  rw [View.set_slice_whole, Rect.mem_set_unit]
  exact Iff.rfl

/-- Every index of the output lies in the block of the grid point `(i₀, i₁ / 512)`. -/
theorem cover (i : S16x4096x1.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 1 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1 ≤ (i 2).val ∧ (i 2).val < win0_2.index t (2 : Fin 3) * 1 + 1; omega

/-- THE OUTPUT ARRAY after the region: the column of nearest values. -/
theorem final (c : Dev nD) : (dats m 0 c).arrAt 2 cfg0.N = dists (V m c main_v0) (V m c main_v1) :=
  (dats m 0 c).arrAt_eq_of_cover 2 (dists (V m c main_v0) (V m c main_v1)) (fun t _ => flushed_eq m c t) cover

end Cert.KernelIdeal.Blocks

end
-- ==== Proof.Total.lean ====
/-
  The scalar both programs return: the nearest values of all 16 × 4096 query points, summed from zero and divided by
  the word of 131072 (= 2 · 4096 · 16). The sum and the quotient are the same host operations in both programs, so they
  are wrapped once and never opened: the two results agree as soon as the two tables of nearest values do.
-/
import proofs.«177579_j52570399703230_1_alg».proof.Proof.Spec
import Idealize.ShloMosaic.PureOps.Ideal
import Idealize.ShloMosaic.Lib.ValueIdx

noncomputable section

namespace Cert.Nearest

open Idealize.ShloMosaic Idealize.ShloMosaic.ValueIdx

/-- The 16 × 4096 table of nearest values of the clouds `X`, `Y`. -/
def table (X Y : Cloud.Idx → EReal) : (⟨2, ![16, 4096]⟩ : Shape).Idx → EReal :=
  fun i => nearest X Y ⟨(i 0).val, (i 0).isLt⟩ ⟨(i 1).val, (i 1).isLt⟩

/-- A table summed over both axes from the zero word, divided by the word of 131072. -/
def mean (D : (⟨2, ![16, 4096]⟩ : Shape).Idx → EReal)
    (h1 : (⟨2, ![16, 4096]⟩ : Shape).ReducesTo [0, 1] ⟨0, ![]⟩) (h2 : 0 < (⟨0, ![]⟩ : Shape).numel) :
    (⟨0, ![]⟩ : Shape).Idx → EReal :=
  Host.divf (F := Ideal)
    (Host.reduceAdd (F := Ideal) (φ := .f32) D (constant (F := Ideal) ⟨0, ![]⟩ .f32 0x00000000#32) h1 h2)
    (constant (F := Ideal) ⟨0, ![]⟩ .f32 0x48000000#32)

end Cert.Nearest

end
-- ==== Proof.Whole.lean ====
/-
  The kernel program's run with its result named.

  Before the region the host transposes both arguments to batch × point × coordinate; the region leaves the column of
  nearest values (Blocks); after the region the host drops the column's unit axis, sums, and divides. So the result is
  the mean of the table of nearest values of the two transposed arguments.
-/
import proofs.«177579_j52570399703230_1_alg».proof.Proof.Blocks
import proofs.«177579_j52570399703230_1_alg».proof.Proof.Total
import Idealize.ShloMosaic.Lib.StableHlo.Run
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Nearest Idealize.ShloMosaic.StableHlo

variable (m : (ℓ : Loc nD τ sig) → Buf (Elt Ideal) ℓ) (ρ : Dev nD → PrngReg)

/-- An argument laid out batch × point × coordinate. -/
abbrev cloud (x : S16x3x4096.Idx → EReal) : S16x4096x3.Idx → EReal :=
  transpose S16x4096x3 [0, 2, 1] x transposes_S16x3x4096_S16x4096x3_0_2_1

/-- The region finds the first cloud as the host's transpose of the first argument left it. -/
theorem V_main_v0 (c : Dev nD) :
    (V m c main_v0 : S16x4096x3.Idx → EReal) = cloud (m ((c : Thread nD τ).loc main_arg0)) := by
  show StableHlo.after hostOps0 (fun b => m (c, b)) (Proc.devRef .tc main_v0) = _
  after_results

/-- And the second cloud likewise. -/
theorem V_main_v1 (c : Dev nD) :
    (V m c main_v1 : S16x4096x3.Idx → EReal) = cloud (m ((c : Thread nD τ).loc main_arg1)) := by
  show StableHlo.after hostOps0 (fun b => m (c, b)) (Proc.devRef .tc main_v1) = _
  after_results

/-- The column of nearest values with its unit axis dropped is the table. -/
theorem dists_table (X Y : S16x4096x3.Idx → EReal) (b : Fin 16) (p : Fin 4096) :
    shapeCast S16x4096 (Blocks.dists X Y) shapeCasts_S16x4096x1_S16x4096 (ix2 b p) = table X Y (ix2 b p) :=
  shapeCast_apply (Blocks.dists X Y) shapeCasts_S16x4096x1_S16x4096 (ix2 b p) (ix3 b p (0 : Fin 1)) (by
    rw [Shape.rowMajor_val_three, Shape.rowMajor_val_two]
    show (b.val * 4096 + p.val) * 1 + 0 = b.val * 4096 + p.val
    omega)

/-- THE RESULT after the host's last lines. -/
theorem result_eq (c : Dev nD) :
    Pipeline.afterTail₀ cfgs (dats m) 0 (V0 m) [hostOps1] c main_v5
      = mean (table (cloud (m ((c : Thread nD τ).loc main_arg0))) (cloud (m ((c : Thread nD τ).loc main_arg1))))
          reducesTo_S16x4096_S_d0_1 h_S_ := by
  have hw : Pipeline.withArrays (cfgs 0).spec c (V0 m c) (fun w => (dats m 0 c).arrAt w (cfgs 0).N) (Proc.devRef .tc main_v2)
      = Blocks.dists (V m c main_v0) (V m c main_v1) :=
    (Pipeline.withArrays_arr spec0 launch0.win.arr_inj c _ _ 2).trans (Blocks.final m c)
  unfold Pipeline.afterTail₀
  show StableHlo.after hostOps1 _ (Proc.devRef .tc main_v5) = _
  after_results
  unfold mean
  refine congrArg (fun D => Host.divf (F := Ideal) (Host.reduceAdd (F := Ideal) (φ := .f32) D (constant S_ .f32 0x00000000#32) reducesTo_S16x4096_S_d0_1 h_S_)
    (constant S_ .f32 0x48000000#32)) (funext fun i => ?_)
  obtain ⟨b, p, rfl⟩ : ∃ (b : Fin 16) (p : Fin 4096), i = ix2 b p := ⟨i 0, i 1, eq_ix2 i⟩
  refine (congrArg (fun A => shapeCast S16x4096 A shapeCasts_S16x4096x1_S16x4096 (ix2 b p)) hw).trans ?_
  rw [V_main_v0, V_main_v1]
  exact dists_table _ _ b p

/-- Every weakly fair execution of the kernel program terminates with its result at the mean of the table of nearest
    values of the two transposed arguments, the arguments unchanged. -/
theorem run : θ_run defs (onTc (τ := τ) (main (F := Ideal))) ⟨m, fun _ => 0, ρ⟩ fun r => ∀ c : Dev nD,
      r.2.mem ((c : Thread nD τ).loc main_v5)
        = mean (table (cloud (m ((c : Thread nD τ).loc main_arg0))) (cloud (m ((c : Thread nD τ).loc main_arg1))))
            reducesTo_S16x4096_S_d0_1 h_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.Ref.lean ====
/-
  The reference's minimum stage, read at an index.

  The reference forms the whole 16 × 4096 × 4096 table `(|x_i|² + |y_j|²) − 2·(x_i · y_j)` and takes its minimum
  along the last axis from `+∞`. At `(b, i)` that is the minimum over the candidates `j` of the same expression the
  kernel forms block by block; the squared norms come with the zero they are summed from, which adds nothing.
-/
import proofs.«177579_j52570399703230_1_alg».proof.Proof.Gen.ReferenceIdeal.Read
import proofs.«177579_j52570399703230_1_alg».proof.Proof.Spec
import Idealize.ShloMosaic.Lib.ValueIdx
import Idealize.ShloMosaic.PureOps.Ideal.Laws

noncomputable section

namespace Cert.ReferenceIdeal.RefNearest

open Cert.ReferenceIdeal Cert.ReferenceIdeal.Gen Cert.ReferenceIdeal.Read Idealize.ShloMosaic Idealize.ShloMosaic.ValueIdx Cert.Nearest

/-- Reducing the table along its last axis: the source index over `(b, i)` with candidate `k` put back is `(b, i, k)`. -/
theorem lift_last (h : S16x4096x4096.Reduces [2] S16x4096) (b : Fin 16) (i : Fin 4096) (k : Fin 4096) :
    h.lift (ix2 b i) k = ix3 b i k :=
  funext fun c => Fin.ext (by match c with | ⟨0, _⟩ => rfl | ⟨1, _⟩ => rfl | ⟨2, _⟩ => rfl)

/-- One entry of the table. -/
theorem table_apply (x0 x1 : (⟨S16x3x4096, .f32⟩ : BufTy).Contents (Elt Ideal)) (b : Fin 16) (i j : Fin 4096) :
    val_main_v14 (F := Ideal) x0 x1 (ix3 b i j)
      = ((∑ d : Fin 3, val_main_v0 (F := Ideal) x0 (ix3 b i d) * val_main_v0 (F := Ideal) x0 (ix3 b i d))
          + ∑ d : Fin 3, val_main_v1 (F := Ideal) x1 (ix3 b j d) * val_main_v1 (F := Ideal) x1 (ix3 b j d))
        - two * ∑ d : Fin 3, val_main_v0 (F := Ideal) x0 (ix3 b i d) * val_main_v1 (F := Ideal) x1 (ix3 b j d) := by
  have e1 : ∀ k : Fin 3, idx_main_v3 (idx_main_v7 (idx_main_v9 (ix3 b i j))) k = ix3 b i k := fun k =>
    funext fun a => Fin.ext (by match a with | ⟨0, _⟩ => rfl | ⟨1, _⟩ => rfl | ⟨2, _⟩ => rfl)
  have e2 : ∀ k : Fin 3, idx_main_v5 (idx_main_v8 (idx_main_v10 (ix3 b i j))) k = ix3 b j k := fun k =>
    funext fun a => Fin.ext (by match a with | ⟨0, _⟩ => rfl | ⟨1, _⟩ => rfl | ⟨2, _⟩ => rfl)
  have e3 : ∀ k : Fin 3, lidx_main_v6 (ix3 b i j) k = ix3 b i k := fun k =>
    funext fun a => Fin.ext (by match a with | ⟨0, _⟩ => rfl | ⟨1, _⟩ => rfl | ⟨2, _⟩ => rfl)
  have e4 : ∀ k : Fin 3, ridx_main_v6 (ix3 b i j) k = ix3 b j k := fun k =>
    funext fun a => Fin.ext (by match a with | ⟨0, _⟩ => rfl | ⟨1, _⟩ => rfl | ⟨2, _⟩ => rfl)
  rw [val_main_v14_apply, val_main_v11_apply, val_main_v13_apply, val_main_v9_apply, val_main_v7_apply, val_main_v3_apply,
    val_main_v10_apply, val_main_v8_apply, val_main_v5_apply, val_main_v12_apply, val_main_cst_1_apply, val_main_v6_apply]
  simp only [e1, e2, e3, e4, val_main_v2_apply, val_main_v4_apply, val_main_cst_apply, val_main_cst_0_apply,
    Ideal.ofBits_def, Ideal.ofBits_zero_f32, zero_add, Ideal.mulf_def, Ideal.addf_def, Ideal.subf_def]

/-- THE MINIMUM STAGE at `(b, i)`: point `i` of batch entry `b` of the first cloud against the second cloud's points,
    both clouds read batch × point × coordinate. -/
theorem dist_apply (x0 x1 : (⟨S16x3x4096, .f32⟩ : BufTy).Contents (Elt Ideal)) (b : Fin 16) (i : Fin 4096) :
    val_main_v15 (F := Ideal) x0 x1 (ix2 b i)
      = nearest (val_main_v0 (F := Ideal) x0) (val_main_v1 (F := Ideal) x1) b i := by
  unfold val_main_v15
  refine (Host.reduce_eq_fold_single FloatOps.minimumf _ _ reducesTo_S16x4096x4096_S16x4096_d2 (by decide) h_S_ (ix2 b i)).trans ?_
  unfold nearest rowNearest
  refine congrArg (fun f => Finset.fold min start f Finset.univ) (funext fun j => ?_)
  exact (congrArg (val_main_v14 (F := Ideal) x0 x1) (lift_last _ b i j)).trans (table_apply x0 x1 b i j)

end Cert.ReferenceIdeal.RefNearest

end
-- ==== Proof.RefWhole.lean ====
/-
  The reference's result: its minimum stage is the table of nearest values of the two transposed arguments (Ref), and
  its last two operations are the sum from zero and the quotient by 131072 — the mean of that table.
-/
import proofs.«177579_j52570399703230_1_alg».proof.Proof.Ref
import proofs.«177579_j52570399703230_1_alg».proof.Proof.Total

noncomputable section

namespace Cert.ReferenceIdeal.RefNearest

open Cert.ReferenceIdeal Cert.ReferenceIdeal.Gen Cert.ReferenceIdeal.Read Idealize.ShloMosaic Idealize.ShloMosaic.ValueIdx Cert.Nearest

/-- THE REFERENCE'S RESULT as the mean of the table of nearest values. -/
theorem result_eq (x0 x1 : (⟨S16x3x4096, .f32⟩ : BufTy).Contents (Elt Ideal)) :
    val_main_v17 (F := Ideal) x0 x1
      = mean (table (val_main_v0 (F := Ideal) x0) (val_main_v1 (F := Ideal) x1)) reducesTo_S16x4096_S_d0_1 h_S_ := by
  unfold val_main_v17 val_main_v16 val_main_cst_3 val_main_cst_4 mean
  refine congrArg (fun D => Host.divf (F := Ideal) (Host.reduceAdd (F := Ideal) (φ := .f32) D (constant S_ .f32 0x00000000#32) reducesTo_S16x4096_S_d0_1 h_S_)
    (constant S_ .f32 0x48000000#32)) (funext fun i => ?_)
  obtain ⟨b, p, rfl⟩ : ∃ (b : Fin 16) (p : Fin 4096), i = ix2 b p := ⟨i 0, i 1, eq_ix2 i⟩
  exact dist_apply x0 x1 b p

end Cert.ReferenceIdeal.RefNearest

end
-- ==== Proof.lean ====
/-
  Mean nearest-neighbour distance between two batches of point clouds: the kernel against its jnp reference, over the
  extended reals.

  Both programs transpose the arguments to batch × point × coordinate, form for every query point `x_i` of the first
  cloud the minimum over the points `y_j` of the second cloud of `(|x_i|² + |y_j|²) − 2·(x_i · y_j)`, sum the 16 × 4096
  minima and divide by 131072. The kernel does the middle step on a 16 × 8 grid, 512 query points at a time against
  the whole second cloud of the batch entry, with the cross term on the matrix unit (narrowed to bf16, which is the
  identity here); the reference forms the whole 16 × 4096 × 4096 table. Entry by entry the two minima are the same
  fold of the same terms (Body and Blocks for the kernel, Ref for the reference), the three-term sums differ only in
  carrying a leading zero, and the sum and quotient after them are one shared tail (Total). No law of the extended
  reals beyond `0 + a = a` is used, so the finiteness of the inputs is never opened.
-/
import proofs.«177579_j52570399703230_1_alg».proof.Defs
import proofs.«177579_j52570399703230_1_alg».proof.Proof.Gen.Kernel
import proofs.«177579_j52570399703230_1_alg».proof.Proof.Gen.Kernel.Skeleton
import proofs.«177579_j52570399703230_1_alg».proof.Proof.Gen.Kernel.Launch
import proofs.«177579_j52570399703230_1_alg».proof.Proof.Gen.Kernel.Points
import proofs.«177579_j52570399703230_1_alg».proof.Proof.Gen.Kernel.Frame
import proofs.«177579_j52570399703230_1_alg».proof.Proof.Gen.KernelIdeal
import proofs.«177579_j52570399703230_1_alg».proof.Proof.Gen.KernelIdeal.Skeleton
import proofs.«177579_j52570399703230_1_alg».proof.Proof.Gen.KernelIdeal.Launch
import proofs.«177579_j52570399703230_1_alg».proof.Proof.Gen.KernelIdeal.Points
import proofs.«177579_j52570399703230_1_alg».proof.Proof.Gen.KernelIdeal.Frame
import proofs.«177579_j52570399703230_1_alg».proof.Proof.Gen.ReferenceIdeal
import proofs.«177579_j52570399703230_1_alg».proof.Proof.Gen.Pre_finite_inputs
import proofs.«177579_j52570399703230_1_alg».proof.Proof.Gen.ReferenceIdeal.Run
import proofs.«177579_j52570399703230_1_alg».proof.Proof.Gen.ReferenceIdeal.Read
import proofs.«177579_j52570399703230_1_alg».proof.Proof.Whole
import proofs.«177579_j52570399703230_1_alg».proof.Proof.RefWhole
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the mean of the table of nearest values of the two transposed arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v17_eq _ _).trans (Cert.ReferenceIdeal.RefNearest.result_eq _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
